-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3072x2048 : Shape := ⟨3, ![2, 3072, 2048]⟩
abbrev S32x2048x128 : Shape := ⟨3, ![32, 2048, 128]⟩
abbrev S192x128 : Shape := ⟨2, ![192, 128]⟩
abbrev S_ : Shape := ⟨0, ![]⟩

class Facts : Prop where
  bcast_S_S2x3072x2048 : S_.BroadcastsInDim S2x3072x2048 (![] : Fin 0 → Fin S2x3072x2048.rank)
  reducesTo_S2x3072x2048_S_d0_1_2 : S2x3072x2048.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S192x128 : S_.BroadcastsInDim S192x128 (![] : Fin 0 → Fin S192x128.rank)
  reducesTo_S192x128_S_d0_1 : S192x128.ReducesTo [0, 1] S_

variable [Facts]

def fn {F : FTy → Type} [FloatOps F] (main_arg0 : FVec F S2x3072x2048 .f32) (main_arg1 : FVec F S32x2048x128 .f32) (main_arg2 : FVec F S192x128 .f32) : IVec S_ 1 :=
  let main_v0 : FVec F S2x3072x2048 .f32 := Host.absf main_arg0
  let main_cst : FVec F S_ .f32 := constant S_ .f32 0x7F800000#32
  let main_v1 : FVec F S2x3072x2048 .f32 := broadcastInDim S2x3072x2048 ![] bcast_S_S2x3072x2048 main_cst
  let main_v2 : IVec S2x3072x2048 1 := cmpf .olt main_v0 main_v1
  let main_c : IVec S_ 1 := constantI S_ 1 1#1
  let main_v3 : IVec S_ 1 := (fun x v => Host.reduce IntOp.andi x v reducesTo_S2x3072x2048_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  main_v13
-- ==== Kernel.lean ====
abbrev S2x3072x2048 : Shape := ⟨3, ![2, 3072, 2048]⟩
abbrev S32x2048x128 : Shape := ⟨3, ![32, 2048, 128]⟩
abbrev S192x128 : Shape := ⟨2, ![192, 128]⟩
abbrev S32x192x2048 : Shape := ⟨3, ![32, 192, 2048]⟩
abbrev S32x64x2048 : Shape := ⟨3, ![32, 64, 2048]⟩
abbrev S2x192x2048 : Shape := ⟨3, ![2, 192, 2048]⟩
abbrev S2x2048x128 : Shape := ⟨3, ![2, 2048, 128]⟩
abbrev S2x64x2048 : Shape := ⟨3, ![2, 64, 2048]⟩
abbrev S1x2048x128 : Shape := ⟨3, ![1, 2048, 128]⟩
abbrev S2048x128 : Shape := ⟨2, ![2048, 128]⟩
abbrev S192x2048 : Shape := ⟨2, ![192, 2048]⟩
abbrev S1x64x2048 : Shape := ⟨3, ![1, 64, 2048]⟩
abbrev S64x2048 : Shape := ⟨2, ![64, 2048]⟩
abbrev S2048x2048 : Shape := ⟨2, ![2048, 2048]⟩
abbrev S2048x64 : Shape := ⟨2, ![2048, 64]⟩
abbrev S2048x8 : Shape := ⟨2, ![2048, 8]⟩
abbrev S2048x72 : Shape := ⟨2, ![2048, 72]⟩
abbrev S2048x1 : Shape := ⟨2, ![2048, 1]⟩
abbrev S2x1024x2048 : Shape := ⟨3, ![2, 1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2x3072x2048, .f32⟩
  | .hbm, ⟨1, _⟩ => ⟨S32x2048x128, .f32⟩
  | .hbm, ⟨2, _⟩ => ⟨S192x128, .f32⟩
  | .hbm, ⟨3, _⟩ => ⟨S32x192x2048, .f32⟩
  | .hbm, ⟨4, _⟩ => ⟨S32x64x2048, .f32⟩
  | .hbm, ⟨5, _⟩ => ⟨S2x1024x2048, .f32⟩
  | .local _ .vmem, ⟨0, _⟩ => ⟨S2x192x2048, .f32⟩
  | .local _ .vmem, ⟨1, _⟩ => ⟨S2x192x2048, .f32⟩
  | .local _ .vmem, ⟨2, _⟩ => ⟨S2x2048x128, .f32⟩
  | .local _ .vmem, ⟨3, _⟩ => ⟨S2x2048x128, .f32⟩
  | .local _ .vmem, ⟨4, _⟩ => ⟨S192x128, .f32⟩
  | .local _ .vmem, ⟨5, _⟩ => ⟨S2x64x2048, .f32⟩
  | .local _ .vmem, ⟨6, _⟩ => ⟨S2x64x2048, .f32⟩
  | _, _ => ⟨S2x3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x3072x2048_S32x192x2048 : S2x3072x2048.ShapeCasts S32x192x2048
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S192x128_S192x128_0_0 : ∀ a, (![0, 0] : Fin 2 → Nat) a + S192x128.size a ≤ S192x128.size a
  h_S192x128 : 0 < S192x128.numel
  inb_S2x192x2048_S1x64x2048_0_0_0 : ∀ a, (![0, 0, 0] : Fin 3 → Nat) a + S1x64x2048.size a ≤ S2x192x2048.size a
  h_S1x64x2048 : 0 < S1x64x2048.numel
  shapeCasts_S1x64x2048_S64x2048 : S1x64x2048.ShapeCasts S64x2048
  slices_S192x2048_o0_0_S64x2048 : S192x2048.Slices ![0, 0] S64x2048
  inb_S2x192x2048_S1x64x2048_0_64_0 : ∀ a, (![0, 64, 0] : Fin 3 → Nat) a + S1x64x2048.size a ≤ S2x192x2048.size a
  slices_S192x2048_o64_0_S64x2048 : S192x2048.Slices ![64, 0] S64x2048
  inb_S2x192x2048_S1x64x2048_0_128_0 : ∀ a, (![0, 128, 0] : Fin 3 → Nat) a + S1x64x2048.size a ≤ S2x192x2048.size a
  slices_S192x2048_o128_0_S64x2048 : S192x2048.Slices ![128, 0] S64x2048
  bitsLt_bf16_f32 : FTy.bits .bf16 < FTy.bits .f32
  transposes_S64x2048_p1_0_S2048x64 : S64x2048.Transposes [1, 0] S2048x64
  concatenates_S2048x64_S2048x8_S2048x72_d1 : Shape.Concatenates [S2048x64, S2048x8] S2048x72 1
  slices_S2048x72_o0_0_S2048x64 : S2048x72.Slices ![0, 0] S2048x64
  slices_S2048x72_o0_64_S2048x1 : S2048x72.Slices ![0, 64] S2048x1
  broadcasts_S2048x1_S2048x64 : S2048x1.Broadcasts S2048x64
  transposes_S2048x64_p1_0_S64x2048 : S2048x64.Transposes [1, 0] S64x2048
  inb_S2x64x2048_S1x64x2048_0_0_0 : ∀ a, (![0, 0, 0] : Fin 3 → Nat) a + S1x64x2048.size a ≤ S2x64x2048.size a
  shapeCasts_S64x2048_S1x64x2048 : S64x2048.ShapeCasts S1x64x2048
  inb_S2x2048x128_S1x2048x128_1_0_0 : ∀ a, (![1, 0, 0] : Fin 3 → Nat) a + S1x2048x128.size a ≤ S2x2048x128.size a
  inb_S2x192x2048_S1x64x2048_1_0_0 : ∀ a, (![1, 0, 0] : Fin 3 → Nat) a + S1x64x2048.size a ≤ S2x192x2048.size a
  inb_S2x192x2048_S1x64x2048_1_64_0 : ∀ a, (![1, 64, 0] : Fin 3 → Nat) a + S1x64x2048.size a ≤ S2x192x2048.size a
  inb_S2x192x2048_S1x64x2048_1_128_0 : ∀ a, (![1, 128, 0] : Fin 3 → Nat) a + S1x64x2048.size a ≤ S2x192x2048.size a
  inb_S2x64x2048_S1x64x2048_1_0_0 : ∀ a, (![1, 0, 0] : Fin 3 → Nat) a + S1x64x2048.size a ≤ S2x64x2048.size a
  shapeCasts_S32x64x2048_S2x1024x2048 : S32x64x2048.ShapeCasts S2x1024x2048
  dot_S192x128_S2048x128_S192x2048_1_1_0_0_n_n_wf : DotDims.WF S192x128 S2048x128 S192x2048 [1] [1] [0] [0] [] []
  dot_S64x2048_S64x2048_S2048x2048_0_0_1_1_n_n_wf : DotDims.WF S64x2048 S64x2048 S2048x2048 [0] [0] [1] [1] [] []
  dot_S2048x2048_S2048x72_S2048x72_1_0_0_1_n_n_wf : DotDims.WF S2048x2048 S2048x72 S2048x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x192x2048.size a ≤ S32x192x2048.size a
  hwx0_0 : ∀ i : grid0.Coords, EltTy.bits .f32 = 32 ∨ (Rect.block (s := S32x192x2048) S2x192x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S32x2048x128.size a
  hwx0_1 : ∀ i : grid0.Coords, EltTy.bits .f32 = 32 ∨ (Rect.block (s := S32x2048x128) S2x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x2048.size a ≤ S32x64x2048.size a
  hwx0_3 : ∀ i : grid0.Coords, EltTy.bits .f32 = 32 ∨ (Rect.block (s := S32x64x2048) S2x64x2048.size (cc0_transform_3 i) (hinb0_3 i)).WholeWords (EltTy.packing .f32)

variable [Facts₀]

def dot_S192x128_S2048x128_S192x2048_1_1_0_0_n_n : DotDims S192x128 S2048x128 S192x2048 where
  lhsContracting := [1]
  rhsContracting := [1]
  lhsNonContracting := [0]
  rhsNonContracting := [0]
  lhsBatch := []
  rhsBatch := []
  wf := dot_S192x128_S2048x128_S192x2048_1_1_0_0_n_n_wf
def dot_S64x2048_S64x2048_S2048x2048_0_0_1_1_n_n : DotDims S64x2048 S64x2048 S2048x2048 where
  lhsContracting := [0]
  rhsContracting := [0]
  lhsNonContracting := [1]
  rhsNonContracting := [1]
  lhsBatch := []
  rhsBatch := []
  wf := dot_S64x2048_S64x2048_S2048x2048_0_0_1_1_n_n_wf
def dot_S2048x2048_S2048x72_S2048x72_1_0_0_1_n_n : DotDims S2048x2048 S2048x72 S2048x72 where
  lhsContracting := [1]
  rhsContracting := [0]
  lhsNonContracting := [0]
  rhsNonContracting := [1]
  lhsBatch := []
  rhsBatch := []
  wf := dot_S2048x2048_S2048x72_S2048x72_1_0_0_1_n_n_wf

abbrev win0_0 : Pipeline.Window sig grid0 :=
  Pipeline.Window.ofSpec (Memref.whole main_v0) S2x192x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x3072x2048 : Shape := ⟨3, ![2, 3072, 2048]⟩
abbrev S32x2048x128 : Shape := ⟨3, ![32, 2048, 128]⟩
abbrev S192x128 : Shape := ⟨2, ![192, 128]⟩
abbrev S32x192x2048 : Shape := ⟨3, ![32, 192, 2048]⟩
abbrev S32x64x2048 : Shape := ⟨3, ![32, 64, 2048]⟩
abbrev S32x2048x192 : Shape := ⟨3, ![32, 2048, 192]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩
abbrev S2x1024x2048 : Shape := ⟨3, ![2, 1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x3072x2048, .f32⟩
  | .hbm, ⟨1, _⟩ => ⟨S32x2048x128, .f32⟩
  | .hbm, ⟨2, _⟩ => ⟨S192x128, .f32⟩
  | .hbm, ⟨3, _⟩ => ⟨S32x192x2048, .f32⟩
  | .hbm, ⟨4, _⟩ => ⟨S32x64x2048, .f32⟩
  | .hbm, ⟨5, _⟩ => ⟨S32x64x2048, .f32⟩
  | .hbm, ⟨6, _⟩ => ⟨S32x64x2048, .f32⟩
  | .hbm, ⟨7, _⟩ => ⟨S32x2048x192, .f32⟩
  | .hbm, ⟨8, _⟩ => ⟨S32x192x2048, .f32⟩
  | .hbm, ⟨9, _⟩ => ⟨S32x64x2048, .f32⟩
  | .hbm, ⟨10, _⟩ => ⟨S32x64x2048, .f32⟩
  | .hbm, ⟨11, _⟩ => ⟨S32x64x2048, .f32⟩
  | .hbm, ⟨12, _⟩ => ⟨S32x64x2048, .f32⟩
  | .hbm, ⟨13, _⟩ => ⟨S_, .f32⟩
  | .hbm, ⟨14, _⟩ => ⟨S32x64x2048, .f32⟩
  | .hbm, ⟨15, _⟩ => ⟨S32x64x2048, .f32⟩
  | .hbm, ⟨16, _⟩ => ⟨S32x64x2048, .f32⟩
  | .hbm, ⟨17, _⟩ => ⟨S_, .f32⟩
  | .hbm, ⟨18, _⟩ => ⟨S32x64x2048, .f32⟩
  | .hbm, ⟨19, _⟩ => ⟨S32x64x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048x1, .f32⟩
  | .hbm, ⟨27, _⟩ => ⟨S32x2048x2048, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S32x2048x2048, .f32⟩
  | .hbm, ⟨34, _⟩ => ⟨S32x2048x2048, .f32⟩
  | .hbm, ⟨35, _⟩ => ⟨S32x64x2048, .f32⟩
  | .hbm, ⟨36, _⟩ => ⟨S32x64x2048, .f32⟩
  | .hbm, ⟨37, _⟩ => ⟨S2x1024x2048, .f32⟩
  | _, _ => ⟨S2x3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x3072x2048_S32x192x2048 : S2x3072x2048.ShapeCasts S32x192x2048
  slices_S32x192x2048_S32x64x2048_0_0_0 : S32x192x2048.Slices ![0, 0, 0] S32x64x2048
  slices_S32x192x2048_S32x64x2048_0_64_0 : S32x192x2048.Slices ![0, 64, 0] S32x64x2048
  slices_S32x192x2048_S32x64x2048_0_128_0 : S32x192x2048.Slices ![0, 128, 0] S32x64x2048
  transposes_S32x2048x192_S32x192x2048_0_2_1 : S32x2048x192.Transposes [0, 2, 1] S32x192x2048
  bcast_S_S32x64x2048 : S_.BroadcastsInDim S32x64x2048 (![] : Fin 0 → Fin S32x64x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  shapeCasts_S32x64x2048_S2x1024x2048 : S32x64x2048.ShapeCasts S2x1024x2048
  dot_S32x2048x128_S192x128_S32x2048x192_2_1_01_0_n_n_wf : DotDims.WF S32x2048x128 S192x128 S32x2048x192 [2] [1] [0, 1] [0] [] []
  dot_S32x64x2048_S32x64x2048_S32x2048x2048_1_1_2_2_0_0_wf : DotDims.WF S32x64x2048 S32x64x2048 S32x2048x2048 [1] [1] [2] [2] [0] [0]
  dot_S32x64x2048_S32x2048x2048_S32x64x2048_2_2_1_1_0_0_wf : DotDims.WF S32x64x2048 S32x2048x2048 S32x64x2048 [2] [2] [1] [1] [0] [0]

variable [Facts₀]

def dot_S32x2048x128_S192x128_S32x2048x192_2_1_01_0_n_n : DotDims S32x2048x128 S192x128 S32x2048x192 where
  lhsContracting := [2]
  rhsContracting := [1]
  lhsNonContracting := [0, 1]
  rhsNonContracting := [0]
  lhsBatch := []
  rhsBatch := []
  wf := dot_S32x2048x128_S192x128_S32x2048x192_2_1_01_0_n_n_wf
def dot_S32x64x2048_S32x64x2048_S32x2048x2048_1_1_2_2_0_0 : DotDims S32x64x2048 S32x64x2048 S32x2048x2048 where
  lhsContracting := [1]
  rhsContracting := [1]
  lhsNonContracting := [2]
  rhsNonContracting := [2]
  lhsBatch := [0]
  rhsBatch := [0]
  wf := dot_S32x64x2048_S32x64x2048_S32x2048x2048_1_1_2_2_0_0_wf
def dot_S32x64x2048_S32x2048x2048_S32x64x2048_2_2_1_1_0_0 : DotDims S32x64x2048 S32x2048x2048 S32x64x2048 where
  lhsContracting := [2]
  rhsContracting := [2]
  lhsNonContracting := [1]
  rhsNonContracting := [1]
  lhsBatch := [0]
  rhsBatch := [0]
  wf := dot_S32x64x2048_S32x2048x2048_S32x64x2048_2_2_1_1_0_0_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# One attention head with a class-token offset, as a function on the extended reals

For one (batch, head) pair the data are three row blocks `xq`, `xk`, `xv` of shape [64, 2048] (channel, position), the
class embedding `Eb` of shape [2048, 128] (position, embedding) and the projection `W` of shape [192, 128].
The projection adds `nulH W Eb o t = ∑ e, W o e * Eb t e` to row `o` of the stacked q/k/v block; the q and k rows are
then scaled by the literal `scale`; the logits are `lgH t u = ∑ c, q c t * k c u`.

Two spellings of the attention output at channel `c`, position `t`:
* `headK`: the un-normalised form `(∑ u, exp (l t u) * v c u) / (∑ u, exp (l t u))`;
* `headR m`: the softmax form with a row offset `m t` subtracted before the exponential,
  `∑ u, v c u * (exp (l t u - m t) / ∑ u', exp (l t u' - m t))`.
They agree when every datum is a real number and `m t` is real (module `Law`).
-/

noncomputable section

namespace Cert.Attn

open Idealize.ShloMosaic

/-- An extended real that is a real number (neither infinity). -/
def IsReal (x : EReal) : Prop := ∃ r : ℝ, x = (r : EReal)

/-- The scale both programs multiply q and k by: the binary32 word nearest to 1/√8. -/
def scale : EReal := Ideal.ofBits .f32 0x3EB504F3#32

/-- Row `c` of the q part, of the k part, of the v part of the stacked [192, ·] block. -/
def row0 (c : Fin 64) : Fin 192 := ⟨c.val, by have := c.isLt; omega⟩
def row1 (c : Fin 64) : Fin 192 := ⟨64 + c.val, by have := c.isLt; omega⟩
def row2 (c : Fin 64) : Fin 192 := ⟨128 + c.val, by have := c.isLt; omega⟩

section Head

variable (xq xk xv : Fin 64 → Fin 2048 → EReal) (Eb : Fin 2048 → Fin 128 → EReal) (W : Fin 192 → Fin 128 → EReal)

/-- The class-token offset of row `o` at position `t`. -/
def nulH (o : Fin 192) (t : Fin 2048) : EReal := ∑ e : Fin 128, W o e * Eb t e

def qeH (c : Fin 64) (t : Fin 2048) : EReal := (xq c t + nulH Eb W (row0 c) t) * scale
def keH (c : Fin 64) (t : Fin 2048) : EReal := (xk c t + nulH Eb W (row1 c) t) * scale
def veH (c : Fin 64) (t : Fin 2048) : EReal := xv c t + nulH Eb W (row2 c) t

/-- The logit of query position `t` against key position `u`. -/
def lgH (t u : Fin 2048) : EReal := ∑ c : Fin 64, qeH xq Eb W c t * keH xk Eb W c u

/-- The un-normalised form: weighted value sum divided by the weight sum. -/
def headK (c : Fin 64) (t : Fin 2048) : EReal :=
  Ideal.div (∑ u : Fin 2048, Ideal.exp (lgH xq xk Eb W t u) * veH xv Eb W c u) (∑ u : Fin 2048, Ideal.exp (lgH xq xk Eb W t u))

/-- The softmax form with the row offset `m t` subtracted under the exponential. -/
def headR (m : Fin 2048 → EReal) (c : Fin 64) (t : Fin 2048) : EReal :=
  ∑ u : Fin 2048, veH xv Eb W c u *
    Ideal.div (Ideal.exp (lgH xq xk Eb W t u - m t)) (∑ u' : Fin 2048, Ideal.exp (lgH xq xk Eb W t u' - m t))

end Head

/-! ## The same over whole arrays: head `b` of [32, 192, 2048], [32, 2048, 128], [192, 128] -/

open ValueIdx

abbrev SX : Shape := ⟨3, ![32, 192, 2048]⟩
abbrev SE : Shape := ⟨3, ![32, 2048, 128]⟩
abbrev SW : Shape := ⟨2, ![192, 128]⟩
abbrev SO : Shape := ⟨3, ![32, 64, 2048]⟩

section Arrays

variable (X : SX.Idx → EReal) (E : SE.Idx → EReal) (W : SW.Idx → EReal)

def xqA (b : Fin 32) (c : Fin 64) (t : Fin 2048) : EReal := X (ix3 b (row0 c) t)
def xkA (b : Fin 32) (c : Fin 64) (t : Fin 2048) : EReal := X (ix3 b (row1 c) t)
def xvA (b : Fin 32) (c : Fin 64) (t : Fin 2048) : EReal := X (ix3 b (row2 c) t)
def EbA (b : Fin 32) (t : Fin 2048) (e : Fin 128) : EReal := E (ix3 b t e)
def WA (o : Fin 192) (e : Fin 128) : EReal := W (ix2 o e)

/-- The un-normalised form of head `b`. -/
def outK (b : Fin 32) (c : Fin 64) (t : Fin 2048) : EReal :=
  headK (xqA X b) (xkA X b) (xvA X b) (EbA E b) (WA W) c t

/-- The softmax form of head `b` with row offsets `mx b`. -/
def outR (mx : Fin 32 → Fin 2048 → EReal) (b : Fin 32) (c : Fin 64) (t : Fin 2048) : EReal :=
  headR (xqA X b) (xkA X b) (xvA X b) (EbA E b) (WA W) (mx b) c t

/-- The logits of head `b`. -/
def lgA (b : Fin 32) (t u : Fin 2048) : EReal := lgH (xqA X b) (xkA X b) (EbA E b) (WA W) t u

/-- The whole result array [32, 64, 2048], index by index. -/
def outArr : SO.Idx → EReal := fun i => outK X E W (i 0) (i 1) (i 2)

end Arrays

end Cert.Attn

end
-- ==== Proof.Finite.lean ====
import proofs.«109991_g25683904430144_cont_9to1_844_23_alg».proof.Proof.Spec
import proofs.«109991_g25683904430144_cont_9to1_844_23_alg».proof.Proof.Gen.Pre_finite_inputs
import Idealize.ShloMosaic.Lib.ReduceAll

/-!
# The precondition says every input entry is a real number
-/

noncomputable section

namespace Cert.Finite

open Idealize.ShloMosaic Cert.Attn Cert.Pre_finite_inputs

/-- The binary32 word with an all-ones exponent and a zero fraction denotes plus infinity. -/
private theorem inf_word : Ideal.ofBits .f32 0x7F800000#32 = (⊤ : EReal) := by
  simp [Ideal.ofBits, Ideal.ieee]

/-- An extended real whose absolute value, `max x (-x)`, compares strictly below plus infinity is a real number:
    minus infinity has absolute value plus infinity, and so has plus infinity. -/
private theorem isReal_of_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- A shape of rank zero has exactly one index. -/
private instance : Subsingleton S_.Idx := ⟨fun a b => funext fun d => d.elim0⟩

theorem real_of_pre (a0 : FVec Ideal S2x3072x2048 .f32) (a1 : FVec Ideal S32x2048x128 .f32) (a2 : FVec Ideal S192x128 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isReal_of_lt _ (Host.reduce_andi_all _ _ _ _ _ h0' i)
  · exact isReal_of_lt _ (Host.reduce_andi_all _ _ _ _ _ h1 i)
  · exact isReal_of_lt _ (Host.reduce_andi_all _ _ _ _ _ h2 i)

end Cert.Finite

end
-- ==== Proof.Law.lean ====
import proofs.«109991_g25683904430144_cont_9to1_844_23_alg».proof.Proof.Spec
import Mathlib.Analysis.SpecialFunctions.Exp

/-!
# The two spellings of the attention output agree on real data
-/

noncomputable section

namespace Cert.Attn

open Idealize.ShloMosaic

theorem scale_real : IsReal scale := by
  show IsReal (Ideal.ieee 8 23 (0x3EB504F3#32 : BitVec 32))
  unfold Ideal.ieee
  simp only []
  rw [if_neg (by decide), if_neg (by decide)]
  exact ⟨_, rfl⟩

/-! ### Real numbers inside the extended reals are closed under sums and products -/

private theorem isReal_add {x y : EReal} (hx : IsReal x) (hy : IsReal y) : IsReal (x + y) := by
  obtain ⟨a, rfl⟩ := hx
  obtain ⟨b, rfl⟩ := hy
  exact ⟨a + b, (EReal.coe_add a b).symm⟩

private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of coerced reals is the coerced sum. -/
private theorem coe_sum_real {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

private theorem isReal_sum {ι : Type*} (s : Finset ι) (f : ι → EReal) (h : ∀ i, IsReal (f i)) :
    IsReal (∑ i ∈ s, f i) := by
  choose g hg using h
  exact ⟨∑ i ∈ s, g i, by rw [← coe_sum_real]; exact Finset.sum_congr rfl (fun i _ => hg i)⟩

/-- The exponential of a real number is the real exponential. -/
private theorem exp_coe (r : ℝ) : Ideal.exp (r : EReal) = (Real.exp r : EReal) := rfl

/-- The quotient of two reals with nonzero denominator is the real quotient. -/
private theorem div_coe (a b : ℝ) (hb : b ≠ 0) : Ideal.div (a : EReal) (b : EReal) = ((a / b : ℝ) : EReal) := by
  unfold Ideal.div
  rw [if_neg (by rw [EReal.coe_eq_zero]; exact hb), div_eq_mul_inv, EReal.coe_mul, EReal.coe_inv]

/-- Softmax is invariant under subtracting a constant from every logit: the real identity. -/
private theorem softmax_real {ι : Type*} [Fintype ι] [Nonempty ι] (l v : ι → ℝ) (m : ℝ) :
    ∑ u, v u * (Real.exp (l u - m) / ∑ u', Real.exp (l u' - m))
      = (∑ u, Real.exp (l u) * v u) / (∑ u, Real.exp (l u)) := by
  have hS : 0 < ∑ u, Real.exp (l u) := Finset.sum_pos (fun i _ => Real.exp_pos _) Finset.univ_nonempty
  have hm : 0 < Real.exp m := Real.exp_pos m
  have hS' : (∑ u, Real.exp (l u)) ≠ 0 := hS.ne'
  have hm' : Real.exp m ≠ 0 := hm.ne'
  have hden : ∑ u', Real.exp (l u' - m) = (∑ u', Real.exp (l u')) / Real.exp m := by
    rw [Finset.sum_div]
    exact Finset.sum_congr rfl (fun u _ => Real.exp_sub _ _)
  rw [Finset.sum_div, hden]
  refine Finset.sum_congr rfl (fun u _ => ?_)
  rw [Real.exp_sub]
  field_simp

section Head
variable (xq xk xv : Fin 64 → Fin 2048 → EReal) (Eb : Fin 2048 → Fin 128 → EReal) (W : Fin 192 → Fin 128 → EReal)

theorem lgH_real (hq : ∀ c t, IsReal (xq c t)) (hk : ∀ c t, IsReal (xk c t))
    (hE : ∀ t e, IsReal (Eb t e)) (hW : ∀ o e, IsReal (W o e)) (t u : Fin 2048) : IsReal (lgH xq xk Eb W t u) := by
  have hn : ∀ o t, IsReal (nulH Eb W o t) := fun o t =>
    isReal_sum _ _ (fun e => isReal_mul (hW o e) (hE t e))
  unfold lgH qeH keH
  exact isReal_sum _ _ (fun c =>
    isReal_mul (isReal_mul (isReal_add (hq c t) (hn _ t)) scale_real)
      (isReal_mul (isReal_add (hk c u) (hn _ u)) scale_real))

theorem headK_eq_headR (hq : ∀ c t, IsReal (xq c t)) (hk : ∀ c t, IsReal (xk c t)) (hv : ∀ c t, IsReal (xv c t))
    (hE : ∀ t e, IsReal (Eb t e)) (hW : ∀ o e, IsReal (W o e)) (m : Fin 2048 → EReal) (hm : ∀ t, IsReal (m t))
    (c : Fin 64) (t : Fin 2048) : headK xq xk xv Eb W c t = headR xq xk xv Eb W m c t := by
  have hL : ∀ u, IsReal (lgH xq xk Eb W t u) := fun u => lgH_real xq xk Eb W hq hk hE hW t u
  choose L hL using hL
  have hV : ∀ u, IsReal (veH xv Eb W c u) := fun u => by
    unfold veH nulH
    exact isReal_add (hv c u) (isReal_sum _ _ (fun e => isReal_mul (hW _ e) (hE u e)))
  choose V hV using hV
  obtain ⟨M, hM⟩ := hm t
  have hpos : (∑ u', Real.exp (L u')) ≠ 0 :=
    (Finset.sum_pos (fun i _ => Real.exp_pos _) Finset.univ_nonempty).ne'
  have hposM : (∑ u', Real.exp (L u' - M)) ≠ 0 :=
    (Finset.sum_pos (fun i _ => Real.exp_pos _) Finset.univ_nonempty).ne'
  have lhs : headK xq xk xv Eb W c t
      = (((∑ u, Real.exp (L u) * V u) / (∑ u, Real.exp (L u)) : ℝ) : EReal) := by
    unfold headK
    simp only [hL, hV, exp_coe, ← EReal.coe_mul, coe_sum_real]
    exact div_coe _ _ hpos
  have rhs : headR xq xk xv Eb W m c t
      = ((∑ u, V u * (Real.exp (L u - M) / ∑ u', Real.exp (L u' - M)) : ℝ) : EReal) := by
    unfold headR
    simp only [hL, hV, hM, ← EReal.coe_sub, exp_coe, coe_sum_real, div_coe _ _ hposM, ← EReal.coe_mul]
  rw [lhs, rhs, softmax_real]
end Head

section Arrays
variable (X : SX.Idx → EReal) (E : SE.Idx → EReal) (W : SW.Idx → EReal)

theorem lgA_real (hX : ∀ i, IsReal (X i)) (hE : ∀ i, IsReal (E i)) (hW : ∀ i, IsReal (W i)) (b : Fin 32) (t u : Fin 2048) :
    IsReal (lgA X E W b t u) :=
  lgH_real _ _ _ _ (fun _ _ => hX _) (fun _ _ => hX _) (fun _ _ => hE _) (fun _ _ => hW _) t u

theorem outK_eq_outR (hX : ∀ i, IsReal (X i)) (hE : ∀ i, IsReal (E i)) (hW : ∀ i, IsReal (W i))
    (mx : Fin 32 → Fin 2048 → EReal) (hmx : ∀ b t, IsReal (mx b t)) (b : Fin 32) (c : Fin 64) (t : Fin 2048) :
    outK X E W b c t = outR X E W mx b c t :=
  headK_eq_headR _ _ _ _ _ (fun _ _ => hX _) (fun _ _ => hX _) (fun _ _ => hX _) (fun _ _ => hE _) (fun _ _ => hW _) (mx b) (hmx b) c t
end Arrays

end Cert.Attn

end
-- ==== Proof.RefRead.lean ====
import proofs.«109991_g25683904430144_cont_9to1_844_23_alg».proof.Proof.Spec
import proofs.«109991_g25683904430144_cont_9to1_844_23_alg».proof.Proof.Gen.ReferenceIdeal.Read

/-!
# The reference program's stages read as the softmax form of the attention output
-/

noncomputable section

namespace Cert.RefRead

open Idealize.ShloMosaic Idealize.ShloMosaic.ValueIdx Cert.Attn Cert.ReferenceIdeal Cert.ReferenceIdeal.Read

variable (x0 : (⟨S2x3072x2048, .f32⟩ : BufTy).Contents (Elt Ideal)) (x1 : (⟨S32x2048x128, .f32⟩ : BufTy).Contents (Elt Ideal))
  (x2 : (⟨S192x128, .f32⟩ : BufTy).Contents (Elt Ideal))

/-- The reshaped qkv array [32, 192, 2048] the reference slices. -/
def Xr : SX.Idx → EReal := val_main_v0 (F := Ideal) x0

/-- The row offsets the reference subtracts: the maximum of the logits' row, floored at -∞. -/
def mxRef (b : Fin 32) (t : Fin 2048) : EReal := val_main_v18 (F := Ideal) x0 x1 x2 (ix2 b t)

/-! ## The composed index functions at explicit coordinates -/

private theorem idx1_eq (b : Fin 32) (c : Fin 64) (t : Fin 2048) : idx_main_v1 (ix3 b c t) = ix3 b (row0 c) t :=
  funext fun a => Fin.ext (by match a with | ⟨0, _⟩ => rfl | ⟨1, _⟩ => rfl | ⟨2, _⟩ => rfl)
private theorem idx2_eq (b : Fin 32) (c : Fin 64) (t : Fin 2048) : idx_main_v2 (ix3 b c t) = ix3 b (row1 c) t :=
  funext fun a => Fin.ext (by match a with | ⟨0, _⟩ => rfl | ⟨1, _⟩ => rfl | ⟨2, _⟩ => rfl)
private theorem idx3_eq (b : Fin 32) (c : Fin 64) (t : Fin 2048) : idx_main_v3 (ix3 b c t) = ix3 b (row2 c) t :=
  funext fun a => Fin.ext (by match a with | ⟨0, _⟩ => rfl | ⟨1, _⟩ => rfl | ⟨2, _⟩ => rfl)
private theorem idx6_eq (b : Fin 32) (c : Fin 64) (t : Fin 2048) : idx_main_v6 (ix3 b c t) = ix3 b (row0 c) t :=
  funext fun a => Fin.ext (by match a with | ⟨0, _⟩ => rfl | ⟨1, _⟩ => rfl | ⟨2, _⟩ => rfl)
private theorem idx7_eq (b : Fin 32) (c : Fin 64) (t : Fin 2048) : idx_main_v7 (ix3 b c t) = ix3 b (row1 c) t :=
  funext fun a => Fin.ext (by match a with | ⟨0, _⟩ => rfl | ⟨1, _⟩ => rfl | ⟨2, _⟩ => rfl)
private theorem idx8_eq (b : Fin 32) (c : Fin 64) (t : Fin 2048) : idx_main_v8 (ix3 b c t) = ix3 b (row2 c) t :=
  funext fun a => Fin.ext (by match a with | ⟨0, _⟩ => rfl | ⟨1, _⟩ => rfl | ⟨2, _⟩ => rfl)
private theorem lidx4_eq (b : Fin 32) (o : Fin 192) (t : Fin 2048) (k : Fin 128) :
    lidx_main_v4 (idx_main_v5 (ix3 b o t)) k = ix3 b t k :=
  funext fun a => Fin.ext (by match a with | ⟨0, _⟩ => rfl | ⟨1, _⟩ => rfl | ⟨2, _⟩ => rfl)
private theorem ridx4_eq (b : Fin 32) (o : Fin 192) (t : Fin 2048) (k : Fin 128) :
    ridx_main_v4 (idx_main_v5 (ix3 b o t)) k = ix2 o k :=
  funext fun a => Fin.ext (by match a with | ⟨0, _⟩ => rfl | ⟨1, _⟩ => rfl)
private theorem lidx15_eq (b : Fin 32) (t u : Fin 2048) (k : Fin 64) : lidx_main_v15 (ix3 b t u) k = ix3 b k t :=
  funext fun a => Fin.ext (by match a with | ⟨0, _⟩ => rfl | ⟨1, _⟩ => rfl | ⟨2, _⟩ => rfl)
private theorem ridx15_eq (b : Fin 32) (t u : Fin 2048) (k : Fin 64) : ridx_main_v15 (ix3 b t u) k = ix3 b k u :=
  funext fun a => Fin.ext (by match a with | ⟨0, _⟩ => rfl | ⟨1, _⟩ => rfl | ⟨2, _⟩ => rfl)

/-! ## The stages below the logits, at explicit coordinates -/

/-- The transposed projection at (b, o, t) is the class-token offset of row o at position t. -/
private theorem v5_at (b : Fin 32) (o : Fin 192) (t : Fin 2048) :
    val_main_v5 (F := Ideal) x1 x2 (ix3 b o t) = nulH (EbA x1 b) (WA x2) o t := by
  rw [val_main_v5_apply, val_main_v4_apply]
  unfold nulH EbA WA
  refine Finset.sum_congr rfl fun k _ => ?_
  rw [lidx4_eq, ridx4_eq, mul_comm]

/-- The scaled q row. -/
private theorem v11_at (b : Fin 32) (c : Fin 64) (t : Fin 2048) :
    val_main_v11 (F := Ideal) x0 x1 x2 (ix3 b c t) = qeH (xqA (Xr x0) b) (EbA x1 b) (WA x2) c t := by
  rw [val_main_v11_apply, val_main_v9_apply, val_main_v1_apply, val_main_v6_apply, val_main_v10_apply, val_main_cst_apply,
    idx1_eq, idx6_eq, v5_at]
  rfl

/-- The scaled k row. -/
private theorem v14_at (b : Fin 32) (c : Fin 64) (t : Fin 2048) :
    val_main_v14 (F := Ideal) x0 x1 x2 (ix3 b c t) = keH (xkA (Xr x0) b) (EbA x1 b) (WA x2) c t := by
  rw [val_main_v14_apply, val_main_v12_apply, val_main_v2_apply, val_main_v7_apply, val_main_v13_apply, val_main_cst_0_apply,
    idx2_eq, idx7_eq, v5_at]
  rfl

/-- The v row with its offset. -/
private theorem v27_at (b : Fin 32) (c : Fin 64) (t : Fin 2048) :
    val_main_v27 (F := Ideal) x0 x1 x2 (ix3 b c t) = veH (xvA (Xr x0) b) (EbA x1 b) (WA x2) c t := by
  rw [val_main_v27_apply, val_main_v3_apply, val_main_v8_apply, idx3_eq, idx8_eq, v5_at]
  rfl

theorem v15_apply (b : Fin 32) (t u : Fin 2048) :
    val_main_v15 (F := Ideal) x0 x1 x2 (ix3 b t u) = lgA (Xr x0) x1 x2 b t u := by
  rw [val_main_v15_apply]
  unfold lgA lgH
  refine Finset.sum_congr rfl fun k _ => ?_
  rw [lidx15_eq, ridx15_eq, v11_at, v14_at]

/-! ## The row maximum is a real number when every logit is -/

/-- The word of -∞ reads as the bottom extended real. -/
private theorem ofBits_negInf : Ideal.ofBits .f32 0xFF800000#32 = (⊥ : EReal) := by
  simp [Ideal.ofBits, Ideal.ieee]

/-- An extended real strictly between the two infinities is a real number. -/
private theorem isReal_of_between {x : EReal} (h1 : ⊥ < x) (h2 : x < ⊤) : IsReal x :=
  ⟨x.toReal, (EReal.coe_toReal (ne_of_lt h2) (ne_of_gt h1)).symm⟩

theorem mxRef_real (h : ∀ b t u, IsReal (lgA (Xr x0) x1 x2 b t u)) (b : Fin 32) (t : Fin 2048) : IsReal (mxRef x0 x1 x2 b t) := by
  have hR : S32x2048x2048.Reduces [2] S32x2048 := by decide
  have hv : ∀ j : S32x2048x2048.Idx, IsReal (val_main_v15 (F := Ideal) x0 x1 x2 j) := by
    intro j
    obtain ⟨a, b', c, rfl⟩ : ∃ (a : Fin 32) (b' c : Fin 2048), j = ix3 a b' c := ⟨_, _, _, eq_ix3 j⟩
    rw [v15_apply]
    exact h a b' c
  unfold mxRef
  rw [val_main_v18_apply, val_main_v17_apply, val_main_cst_2_apply, Ideal.maximumf_def, Ideal.ofBits_def, ofBits_negInf]
  unfold val_main_v16
  rw [Host.reduce_eq_fold_single FloatOps.maximumf _ _ Gen.reducesTo_S32x2048x2048_S32x2048_d2 hR Gen.h_S_,
    val_main_cst_1_apply, Ideal.ofBits_def, ofBits_negInf, bot_sup_eq]
  refine isReal_of_between ?_ ?_
  · refine (Finset.lt_fold_max _).2 (Or.inr ⟨⟨0, by decide⟩, Finset.mem_univ _, ?_⟩)
    obtain ⟨r, hr⟩ := hv (hR.lift (ix2 b t) ⟨0, by decide⟩)
    rw [Function.comp_apply, hr]
    exact EReal.bot_lt_coe r
  · refine (Finset.fold_max_lt _).2 ⟨bot_lt_top, fun k _ => ?_⟩
    obtain ⟨r, hr⟩ := hv (hR.lift (ix2 b t) k)
    rw [Function.comp_apply, hr]
    exact EReal.coe_lt_top r

/-! ## The softmax weights and the output, at explicit coordinates -/

private theorem idx1920_eq (b : Fin 32) (t u : Fin 2048) : idx_main_v19 (idx_main_v20 (ix3 b t u)) = ix2 b t :=
  funext fun a => Fin.ext (by match a with | ⟨0, _⟩ => rfl | ⟨1, _⟩ => rfl)
private theorem idx232425_eq (b : Fin 32) (t u k : Fin 2048) :
    idx_main_v23 (idx_main_v24 (idx_main_v25 (ix3 b t u))) k = ix3 b t k :=
  funext fun a => Fin.ext (by match a with | ⟨0, _⟩ => rfl | ⟨1, _⟩ => rfl | ⟨2, _⟩ => rfl)
private theorem lidx28_eq (b : Fin 32) (c : Fin 64) (t k : Fin 2048) : lidx_main_v28 (ix3 b c t) k = ix3 b c k :=
  funext fun a => Fin.ext (by match a with | ⟨0, _⟩ => rfl | ⟨1, _⟩ => rfl | ⟨2, _⟩ => rfl)
private theorem ridx28_eq (b : Fin 32) (c : Fin 64) (t k : Fin 2048) : ridx_main_v28 (ix3 b c t) k = ix3 b t k :=
  funext fun a => Fin.ext (by match a with | ⟨0, _⟩ => rfl | ⟨1, _⟩ => rfl | ⟨2, _⟩ => rfl)

/-- The exponential of the logit less its row offset. -/
private theorem v22_at (b : Fin 32) (t u : Fin 2048) :
    val_main_v22 (F := Ideal) x0 x1 x2 (ix3 b t u) = Ideal.exp (lgA (Xr x0) x1 x2 b t u - mxRef x0 x1 x2 b t) := by
  rw [val_main_v22_apply, Ideal.hostUnary_exp_def, val_main_v21_apply, Ideal.subf_def, v15_apply, val_main_v20_apply,
    val_main_v19_apply, idx1920_eq]
  rfl

/-- The softmax weight: the exponential over the row's sum of exponentials. -/
private theorem v26_at (b : Fin 32) (t u : Fin 2048) :
    val_main_v26 (F := Ideal) x0 x1 x2 (ix3 b t u)
      = Ideal.div (Ideal.exp (lgA (Xr x0) x1 x2 b t u - mxRef x0 x1 x2 b t))
          (∑ u' : Fin 2048, Ideal.exp (lgA (Xr x0) x1 x2 b t u' - mxRef x0 x1 x2 b t)) := by
  rw [val_main_v26_apply, Ideal.hostDivf_def, v22_at, val_main_v25_apply, val_main_v24_apply, val_main_v23_apply,
    val_main_cst_3_apply, Ideal.ofBits_def, Ideal.ofBits_zero_f32, zero_add]
  congr 1
  refine Finset.sum_congr rfl fun k _ => ?_
  rw [idx232425_eq, v22_at]

private theorem v28_at (b : Fin 32) (c : Fin 64) (t : Fin 2048) :
    val_main_v28 (F := Ideal) x0 x1 x2 (ix3 b c t) = outR (Xr x0) x1 x2 (mxRef x0 x1 x2) b c t := by
  rw [val_main_v28_apply]
  unfold outR headR
  refine Finset.sum_congr rfl fun k _ => ?_
  rw [lidx28_eq, ridx28_eq, v27_at, v26_at]
  rfl

theorem v28_apply (i : S32x64x2048.Idx) :
    val_main_v28 (F := Ideal) x0 x1 x2 i = outR (Xr x0) x1 x2 (mxRef x0 x1 x2) (i 0) (i 1) (i 2) := by
  exact (congrArg (val_main_v28 (F := Ideal) x0 x1 x2) (eq_ix3 i)).trans (v28_at x0 x1 x2 (i 0) (i 1) (i 2))

end Cert.RefRead

end
-- ==== Proof.Bridge.lean ====
import proofs.«109991_g25683904430144_cont_9to1_844_23_alg».proof.Proof.Spec
import proofs.«109991_g25683904430144_cont_9to1_844_23_alg».proof.Proof.Law
import proofs.«109991_g25683904430144_cont_9to1_844_23_alg».proof.Proof.RefRead

/-!
# The reference's attention array is the un-normalised form on real data

The reference's last contraction, index by index, is the softmax form of head `i 0` at channel `i 1`, position `i 2`,
with the row maxima as offsets. When every input entry is real the logits are real, so the row maxima are real, and
the softmax form equals the un-normalised form the kernel computes.
-/

noncomputable section

namespace Cert.Bridge

open Idealize.ShloMosaic Idealize.ShloMosaic.ValueIdx Cert.Attn Cert.RefRead Cert.ReferenceIdeal Cert.ReferenceIdeal.Read

variable (x0 : (⟨S2x3072x2048, .f32⟩ : BufTy).Contents (Elt Ideal)) (x1 : (⟨S32x2048x128, .f32⟩ : BufTy).Contents (Elt Ideal))
  (x2 : (⟨S192x128, .f32⟩ : BufTy).Contents (Elt Ideal))

/-- The reshaped first argument is real wherever the argument is: a reshape only moves entries. -/
theorem Xr_real (h0 : ∀ i, IsReal (x0 i)) (j : SX.Idx) : IsReal (Xr x0 j) := by
  show IsReal (val_main_v0 (F := Ideal) x0 j)
  rw [val_main_v0_apply]
  exact h0 _

theorem v28_eq (h0 : ∀ i, IsReal (x0 i)) (h1 : ∀ i, IsReal (x1 i)) (h2 : ∀ i, IsReal (x2 i)) :
    val_main_v28 (F := Ideal) x0 x1 x2 = outArr (Xr x0) x1 x2 := by
  funext i
  rw [v28_apply]
  exact (outK_eq_outR (Xr x0) x1 x2 (Xr_real x0 h0) h1 h2 (mxRef x0 x1 x2)
    (mxRef_real x0 x1 x2 (lgA_real (Xr x0) x1 x2 (Xr_real x0 h0) h1 h2)) (i 0) (i 1) (i 2)).symm

end Cert.Bridge

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibContractLhsT.lean ====
import Idealize.ShloMosaic.PureOps.Ideal.Laws
import Idealize.ShloMosaic.Lib.ValueIdx

/-!
# The contraction `[K, M] × [K, N]` read at an entry, on the extended reals

`dims M K N` are the dimension numbers of rank-2 operands that contract the left operand's axis 0 with the right
operand's axis 0, with no batch axes: the product `aᵀ · b`. Over them the contraction of two arrays, and the matrix
product accumulated into the zero array, are both, at entry `(p, q)`, the sum over `k` of `a[k, p] · b[k, q]`.
-/

noncomputable section

namespace Cert.LibContractLhsT

open Idealize.ShloMosaic Idealize.ShloMosaic.ValueIdx

/-- `K×M` by `K×N`, both operands contracted on their first axis; the result is `M×N`. -/
def dims (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-! ## The operand indices, axis by axis

At result index `j` and contraction index `c` the left operand is read at `(c, j 0)` and the right one at `(c, j 1)`:
a kept axis reads the result index at its place, the contracted axis reads the one coordinate of `c`. -/

/-- The left operand's row is the contraction index's coordinate. -/
theorem lhs_0 (M K N : Nat) (j : (⟨2, ![M, N]⟩ : Shape).Idx) (c : (dims M K N).contr.Idx) :
    ((dims M K N).lhsIdx j c 0).val = (c ⟨0, Nat.one_pos⟩).val :=
  (dims M K N).lhsIdx_val_of_single rfl j c

/-- The left operand's column is the result's row. -/
theorem lhs_1 (M K N : Nat) (j : (⟨2, ![M, N]⟩ : Shape).Idx) (c : (dims M K N).contr.Idx) :
    ((dims M K N).lhsIdx j c 1).val = (j 0).val := by
  unfold DotDims.lhsIdx
  rw [dif_neg (show ¬(1 : Fin (⟨2, ![K, M]⟩ : Shape).rank) ∈ (dims M K N).lhsBatch from List.not_mem_nil),
    dif_pos (show (1 : Fin (⟨2, ![K, M]⟩ : Shape).rank) ∈ (dims M K N).lhsNonContracting from List.mem_singleton.mpr rfl)]
  rfl

/-- The right operand's row is the contraction index's coordinate. -/
theorem rhs_0 (M K N : Nat) (j : (⟨2, ![M, N]⟩ : Shape).Idx) (c : (dims M K N).contr.Idx) :
    ((dims M K N).rhsIdx j c 0).val = (c ⟨0, Nat.one_pos⟩).val :=
  (dims M K N).rhsIdx_val_of_single rfl j c

/-- The right operand's column is the result's column. -/
theorem rhs_1 (M K N : Nat) (j : (⟨2, ![M, N]⟩ : Shape).Idx) (c : (dims M K N).contr.Idx) :
    ((dims M K N).rhsIdx j c 1).val = (j 1).val := by
  unfold DotDims.rhsIdx
  rw [dif_neg (show ¬(1 : Fin (⟨2, ![K, N]⟩ : Shape).rank) ∈ (dims M K N).rhsBatch from List.not_mem_nil),
    dif_pos (show (1 : Fin (⟨2, ![K, N]⟩ : Shape).rank) ∈ (dims M K N).rhsNonContracting from List.mem_singleton.mpr rfl)]
  rfl

/-- The sum over the one-axis contraction index, re-indexed by its coordinate `k : Fin K` and with both operand
    indices read off: `∑ k, a[k, p] · b[k, q]`. -/
theorem sum_eq (M K N : Nat) {φ₁ φ₂ : FTy} (a : FVec Ideal (⟨2, ![K, M]⟩ : Shape) φ₁)
    (b : FVec Ideal (⟨2, ![K, N]⟩ : Shape) φ₂) (p : Fin M) (q : Fin N) :
    (∑ c : (dims M K N).contr.Idx,
        a ((dims M K N).lhsIdx (ix2 p q) c) * b ((dims M K N).rhsIdx (ix2 p q) c))
      = ∑ k : Fin K, a (ix2 k p) * b (ix2 k q) := by
  rw [← Equiv.sum_comp (ValueIdx.contrEquiv1 (dims M K N) K rfl rfl).symm]
  refine Finset.sum_congr rfl fun k _ => ?_
  have hk := ValueIdx.contrEquiv1_symm_val (dims M K N) K rfl rfl k
  have el : (dims M K N).lhsIdx (ix2 p q) ((ValueIdx.contrEquiv1 (dims M K N) K rfl rfl).symm k)
      = ix2 k p := funext fun x => Fin.ext (by
    match x with
    | ⟨0, _⟩ => exact (lhs_0 M K N _ _).trans hk
    | ⟨1, _⟩ => exact lhs_1 M K N _ _)
  have er : (dims M K N).rhsIdx (ix2 p q) ((ValueIdx.contrEquiv1 (dims M K N) K rfl rfl).symm k)
      = ix2 k q := funext fun x => Fin.ext (by
    match x with
    | ⟨0, _⟩ => exact (rhs_0 M K N _ _).trans hk
    | ⟨1, _⟩ => exact rhs_1 M K N _ _)
  rw [el, er]

/-! ## The contraction read at an entry -/

/-- The contraction of both operands' first axes, at entry `(p, q)`: `∑ k, a[k, p] · b[k, q]`. -/
theorem dotGeneral_apply (M K N : Nat) {φ₁ φ₂ : FTy} (prec : Option ContractPrecision)
    (a : FVec Ideal (⟨2, ![K, M]⟩ : Shape) φ₁) (b : FVec Ideal (⟨2, ![K, N]⟩ : Shape) φ₂) (p : Fin M) (q : Fin N) :
    Host.dotGeneral (dims M K N) prec a b (ix2 p q) = ∑ k : Fin K, a (ix2 k p) * b (ix2 k q) := by
  simp only [Host.dotGeneral]
  rw [Ideal.dotGeneral_apply]
  exact sum_eq M K N a b p q

/-- The matrix product contracting both operands' first axes, accumulated into the zero array, at entry `(p, q)`: the
    same sum. -/
theorem matmul_zero_apply (M K N : Nat) {φ₁ φ₂ : FTy} (prec : Option ContractPrecision)
    (a : FVec Ideal (⟨2, ![K, M]⟩ : Shape) φ₁) (b : FVec Ideal (⟨2, ![K, N]⟩ : Shape) φ₂) (p : Fin M) (q : Fin N) :
    matmul (dims M K N) prec a b (constant (F := Ideal) (⟨2, ![M, N]⟩ : Shape) .f32 0x00000000#32) (ix2 p q)
      = ∑ k : Fin K, a (ix2 k p) * b (ix2 k q) := by
  simp only [matmul]
  rw [Ideal.matmul_constant_zero_apply]
  exact sum_eq M K N a b p q

end Cert.LibContractLhsT

end
-- ==== Proof.Payload.lean ====
import proofs.«109991_g25683904430144_cont_9to1_844_23_alg».proof.Proof.Spec
import proofs.«109991_g25683904430144_cont_9to1_844_23_alg».proof.Proof.Gen.KernelIdeal.Skeleton
import proofs.«109991_g25683904430144_cont_9to1_844_23_alg».proof.Proof.LibContractRhsT
import proofs.«109991_g25683904430144_cont_9to1_844_23_alg».proof.Proof.LibContract
import proofs.«109991_g25683904430144_cont_9to1_844_23_alg».proof.Proof.LibContractLhsT
import Idealize.ShloMosaic.Lib.ValueLayout
import Idealize.ShloMosaic.Lib.IdealHost

/-!
# The kernel body's stored value, entry by entry, is the un-normalised attention output of the blocks it loaded

The stored value is built in four stages, each read here at one entry. The offset product `W · Ebᵀ` is added, row
block by row block, to the query, key and value blocks, and the query and key rows are scaled. The logits are the
product of the transposed queries with the keys. The value matrix is transposed and given eight more columns of
ones, so that one product of the exponentiated logits with it carries the weighted value sums in columns below 64
and the weight sum in column 64. The quotient of the two, transposed back, is the output.
-/

noncomputable section

namespace Cert.Payload

open Idealize.ShloMosaic Idealize.ShloMosaic.ValueIdx Cert.Attn Cert.KernelIdeal Cert.KernelIdeal.Gen

/-- The scaling literal is the specification's `scale`. -/
private theorem scale_eq : (Scalar.ofBits .f32 0x3EB504F3#32 : Ideal .f32) = scale := rfl

/-- The literal one. -/
private theorem one_eq : (Scalar.ofBits .f32 0x3F800000#32 : Ideal .f32) = (1 : EReal) := Ideal.ofBits_one_f32

/-- A scaled sum of a block row and an offset row, at `(c, t)`. -/
private theorem qk_apply (x : FVec Ideal S1x64x2048 .f32) (n : FVec Ideal S192x2048 .f32) (o : Nat)
    (hs : S192x2048.Slices ![o, 0] S64x2048) (c : Fin 64) (t : Fin 2048) (r : Fin 192) (hr : r.val = o + c.val) :
    mulf (addf (shapeCast S64x2048 x shapeCasts_S1x64x2048_S64x2048) (extractStridedSlice S64x2048 ![o, 0] n hs))
        (broadcast S64x2048 (Scalar.ofBits .f32 0x3EB504F3#32 : Ideal .f32)) (ix2 c t)
      = (x (ix3 (0 : Fin 1) c t) + n (ix2 r t)) * scale := by
  rw [mulf_apply, addf_apply, broadcast_apply, scale_eq]
  rw [shapeCast_1ab_ab_apply x shapeCasts_S1x64x2048_S64x2048 c t, slice2_axis0_apply o n hs c t r hr]

/-- The sum of a block row and an offset row, at `(c, t)`. -/
private theorem v_apply (x : FVec Ideal S1x64x2048 .f32) (n : FVec Ideal S192x2048 .f32) (o : Nat)
    (hs : S192x2048.Slices ![o, 0] S64x2048) (c : Fin 64) (t : Fin 2048) (r : Fin 192) (hr : r.val = o + c.val) :
    addf (shapeCast S64x2048 x shapeCasts_S1x64x2048_S64x2048) (extractStridedSlice S64x2048 ![o, 0] n hs) (ix2 c t)
      = x (ix3 (0 : Fin 1) c t) + n (ix2 r t) := by
  rw [addf_apply]
  rw [shapeCast_1ab_ab_apply x shapeCasts_S1x64x2048_S64x2048 c t, slice2_axis0_apply o n hs c t r hr]

/-- The value matrix with eight columns of ones appended, at a column below 64: the transposed value. -/
private theorem aug_left (w : FVec Ideal S64x2048 .f32) (u : Fin 2048) (j : Fin 72) (c : Fin 64) (hj : j.val = c.val) :
    concatenate S2048x72 1 [⟨S2048x64, transpose S2048x64 [1, 0] w transposes_S64x2048_p1_0_S2048x64⟩,
        ⟨S2048x8, broadcast S2048x8 (Scalar.ofBits .f32 0x3F800000#32 : Ideal .f32)⟩]
        concatenates_S2048x64_S2048x8_S2048x72_d1 (ix2 u j) = w (ix2 c u) := by
  refine (concatenate_pair_apply_left (1 : Fin S2048x72.rank) _ _ concatenates_S2048x64_S2048x8_S2048x72_d1 (ix2 u j) rfl (ix2 u c)
    (fun b => by
      match b with
      | ⟨0, _⟩ => rfl
      | ⟨1, _⟩ => exact hj.symm)).trans ?_
  exact transpose_ix2_apply w transposes_S64x2048_p1_0_S2048x64 u c

/-- The same at column 64: one. -/
private theorem aug_right (w : FVec Ideal S64x2048 .f32) (u : Fin 2048) (j : Fin 72) (hj : j.val = 64) :
    concatenate S2048x72 1 [⟨S2048x64, transpose S2048x64 [1, 0] w transposes_S64x2048_p1_0_S2048x64⟩,
        ⟨S2048x8, broadcast S2048x8 (Scalar.ofBits .f32 0x3F800000#32 : Ideal .f32)⟩]
        concatenates_S2048x64_S2048x8_S2048x72_d1 (ix2 u j) = (1 : EReal) := by
  refine (concatenate_pair_apply_right (1 : Fin S2048x72.rank) _ _ concatenates_S2048x64_S2048x8_S2048x72_d1 (ix2 u j) rfl rfl
    (ix2 u (0 : Fin 8))
    (fun b hb => by
      match b with
      | ⟨0, _⟩ => rfl
      | ⟨1, _⟩ => exact absurd rfl hb)
    (by show (0 : Nat) + 64 = j.val; omega)).trans ?_
  exact one_eq

/-- One column broadcast over many: a `[a, 1]` array broadcast to `[a, b]` reads, at `(p, c)`, the operand's one column at `p`. -/
private theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- The offset product: the projection times the transposed class embedding, at `(o, t)`. -/
private theorem nul_apply (v2 : FVec Ideal S192x128 .f32) (v0 : FVec Ideal S1x2048x128 .f32) (o : Fin 192) (t : Fin 2048) :
    matmul dot_S192x128_S2048x128_S192x2048_1_1_0_0_n_n none v2
        (shapeCast S2048x128 v0 shapeCasts_S1x2048x128_S2048x128) (constant (F := Ideal) S192x2048 .f32 0x00000000#32) (ix2 o t)
      = nulH (fun t e => v0 (ix3 (0 : Fin 1) t e)) (fun o e => v2 (ix2 o e)) o t := by
  refine (Cert.LibContractRhsT.matmul_zero_apply 192 128 2048 none v2
    (shapeCast S2048x128 v0 shapeCasts_S1x2048x128_S2048x128) o t).trans ?_
  unfold nulH
  refine Finset.sum_congr rfl fun e _ => ?_
  exact congrArg (v2 (ix2 o e) * ·) (shapeCast_1ab_ab_apply v0 shapeCasts_S1x2048x128_S2048x128 t e)

/-- The logits: the transposed scaled queries times the scaled keys, at `(t, u)`. -/
private theorem lg_apply (a b : FVec Ideal S64x2048 .f32) (t u : Fin 2048) :
    matmul dot_S64x2048_S64x2048_S2048x2048_0_0_1_1_n_n none a b (constant (F := Ideal) S2048x2048 .f32 0x00000000#32) (ix2 t u)
      = ∑ c : Fin 64, a (ix2 c t) * b (ix2 c u) :=
  Cert.LibContractLhsT.matmul_zero_apply 2048 64 2048 none a b t u

/-- The weights times the augmented values, at `(t, j)`. -/
private theorem pv_apply {φ₁ φ₂ : FTy} (a : FVec Ideal S2048x2048 φ₁) (b : FVec Ideal S2048x72 φ₂) (t : Fin 2048) (j : Fin 72) :
    matmul dot_S2048x2048_S2048x72_S2048x72_1_0_0_1_n_n none a b (constant (F := Ideal) S2048x72 .f32 0x00000000#32) (ix2 t j)
      = ∑ u : Fin 2048, a (ix2 t u) * b (ix2 u j) :=
  Cert.LibDense.matmul_plain_zero_apply 2048 2048 72 none a b t j

/-- The last steps: the quotient of column `c` by column 64 of the product, transposed and given a leading unit axis,
    at `(0, c, t)`. -/
private theorem tail_apply (pv : FVec Ideal S2048x72 .f32) (c : Fin 64) (t : Fin 2048) (jc j1 : Fin 72)
    (hc : jc.val = c.val) (h1 : j1.val = 64) :
    shapeCast S1x64x2048 (transpose S64x2048 [1, 0]
        (divf (extractStridedSlice S2048x64 ![0, 0] pv slices_S2048x72_o0_0_S2048x64)
          (broadcastTo S2048x64 (extractStridedSlice S2048x1 ![0, 64] pv slices_S2048x72_o0_64_S2048x1)
            broadcasts_S2048x1_S2048x64))
        transposes_S2048x64_p1_0_S64x2048) shapeCasts_S64x2048_S1x64x2048 (ix3 (0 : Fin 1) c t)
      = Ideal.div (pv (ix2 t jc)) (pv (ix2 t j1)) := by
  refine (shapeCast_ab_1ab_apply _ shapeCasts_S64x2048_S1x64x2048 (0 : Fin 1) c t).trans ?_
  refine (transpose_ix2_apply _ transposes_S2048x64_p1_0_S64x2048 c t).trans ?_
  refine (divf_apply _ _ _).trans ?_
  refine congrArg₂ Ideal.div ?_ ?_
  · exact slice2_axis1_apply 0 pv slices_S2048x72_o0_0_S2048x64 t c jc (by omega)
  · refine (broadcastTo_a1_ab_apply (by decide) _ broadcasts_S2048x1_S2048x64 t c).trans ?_
    exact slice2_axis1_apply 64 pv slices_S2048x72_o0_64_S2048x1 t (0 : Fin 1) j1 (by rw [h1]; rfl)

/-- The product of the exponentiated logits with the augmented values, at a column below 64. -/
private theorem pvl_apply (l : FVec Ideal S2048x2048 .f32) (w : FVec Ideal S64x2048 .f32) (t : Fin 2048) (j : Fin 72)
    (c : Fin 64) (hj : j.val = c.val) :
    matmul dot_S2048x2048_S2048x72_S2048x72_1_0_0_1_n_n none (truncf .bf16 (exp l) bitsLt_bf16_f32)
        (truncf .bf16 (concatenate S2048x72 1 [⟨S2048x64, transpose S2048x64 [1, 0] w transposes_S64x2048_p1_0_S2048x64⟩,
          ⟨S2048x8, broadcast S2048x8 (Scalar.ofBits .f32 0x3F800000#32 : Ideal .f32)⟩]
          concatenates_S2048x64_S2048x8_S2048x72_d1) bitsLt_bf16_f32)
        (constant (F := Ideal) S2048x72 .f32 0x00000000#32) (ix2 t j)
      = ∑ u : Fin 2048, Ideal.exp (l (ix2 t u)) * w (ix2 c u) := by
  refine (pv_apply _ _ t j).trans ?_
  refine Finset.sum_congr rfl fun u _ => ?_
  exact congrArg (Ideal.exp (l (ix2 t u)) * ·) (aug_left w u j c hj)

/-- The same at column 64: the sum of the exponentiated logits. -/
private theorem pvr_apply (l : FVec Ideal S2048x2048 .f32) (w : FVec Ideal S64x2048 .f32) (t : Fin 2048) (j : Fin 72)
    (hj : j.val = 64) :
    matmul dot_S2048x2048_S2048x72_S2048x72_1_0_0_1_n_n none (truncf .bf16 (exp l) bitsLt_bf16_f32)
        (truncf .bf16 (concatenate S2048x72 1 [⟨S2048x64, transpose S2048x64 [1, 0] w transposes_S64x2048_p1_0_S2048x64⟩,
          ⟨S2048x8, broadcast S2048x8 (Scalar.ofBits .f32 0x3F800000#32 : Ideal .f32)⟩]
          concatenates_S2048x64_S2048x8_S2048x72_d1) bitsLt_bf16_f32)
        (constant (F := Ideal) S2048x72 .f32 0x00000000#32) (ix2 t j)
      = ∑ u : Fin 2048, Ideal.exp (l (ix2 t u)) := by
  refine (pv_apply _ _ t j).trans ?_
  refine Finset.sum_congr rfl fun u _ => ?_
  exact (congrArg (Ideal.exp (l (ix2 t u)) * ·) (aug_right w u j hj)).trans (mul_one _)

/-- The logits from the blocks and the offset product, at `(t, u)`. -/
private theorem lgn_apply (x y : FVec Ideal S1x64x2048 .f32) (n : FVec Ideal S192x2048 .f32) (t u : Fin 2048) :
    matmul dot_S64x2048_S64x2048_S2048x2048_0_0_1_1_n_n none
        (mulf (addf (shapeCast S64x2048 x shapeCasts_S1x64x2048_S64x2048)
          (extractStridedSlice S64x2048 ![0, 0] n slices_S192x2048_o0_0_S64x2048))
          (broadcast S64x2048 (Scalar.ofBits .f32 0x3EB504F3#32 : Ideal .f32)))
        (mulf (addf (shapeCast S64x2048 y shapeCasts_S1x64x2048_S64x2048)
          (extractStridedSlice S64x2048 ![64, 0] n slices_S192x2048_o64_0_S64x2048))
          (broadcast S64x2048 (Scalar.ofBits .f32 0x3EB504F3#32 : Ideal .f32)))
        (constant (F := Ideal) S2048x2048 .f32 0x00000000#32) (ix2 t u)
      = ∑ c : Fin 64, ((x (ix3 (0 : Fin 1) c t) + n (ix2 (row0 c) t)) * scale)
          * ((y (ix3 (0 : Fin 1) c u) + n (ix2 (row1 c) u)) * scale) := by
  refine (lg_apply _ _ t u).trans ?_
  refine Finset.sum_congr rfl fun c _ => ?_
  exact congrArg₂ (· * ·)
    (qk_apply x n 0 slices_S192x2048_o0_0_S64x2048 c t (row0 c) (Nat.zero_add _).symm)
    (qk_apply y n 64 slices_S192x2048_o64_0_S64x2048 c u (row1 c) rfl)

theorem pay1_apply (v0 : Vec Ideal S1x2048x128 .f32) (v2 : Vec Ideal S192x128 .f32) (v4 v10 v16 : Vec Ideal S1x64x2048 .f32)
    (c : Fin 64) (t : Fin 2048) :
    k0_pay1 (F := Ideal) v0 v2 v4 v10 v16 (ix3 (0 : Fin 1) c t)
      = headK (fun c t => v4 (ix3 (0 : Fin 1) c t)) (fun c t => v10 (ix3 (0 : Fin 1) c t)) (fun c t => v16 (ix3 (0 : Fin 1) c t))
          (fun t e => v0 (ix3 (0 : Fin 1) t e)) (fun o e => v2 (ix2 o e)) c t := by
  have hl : ∀ t u : Fin 2048,
      matmul dot_S64x2048_S64x2048_S2048x2048_0_0_1_1_n_n none
        (mulf (addf (shapeCast S64x2048 v4 shapeCasts_S1x64x2048_S64x2048)
          (extractStridedSlice S64x2048 ![0, 0]
            (matmul dot_S192x128_S2048x128_S192x2048_1_1_0_0_n_n none v2
              (shapeCast S2048x128 v0 shapeCasts_S1x2048x128_S2048x128) (constant (F := Ideal) S192x2048 .f32 0x00000000#32))
            slices_S192x2048_o0_0_S64x2048))
          (broadcast S64x2048 (Scalar.ofBits .f32 0x3EB504F3#32 : Ideal .f32)))
        (mulf (addf (shapeCast S64x2048 v10 shapeCasts_S1x64x2048_S64x2048)
          (extractStridedSlice S64x2048 ![64, 0]
            (matmul dot_S192x128_S2048x128_S192x2048_1_1_0_0_n_n none v2
              (shapeCast S2048x128 v0 shapeCasts_S1x2048x128_S2048x128) (constant (F := Ideal) S192x2048 .f32 0x00000000#32))
            slices_S192x2048_o64_0_S64x2048))
          (broadcast S64x2048 (Scalar.ofBits .f32 0x3EB504F3#32 : Ideal .f32)))
        (constant (F := Ideal) S2048x2048 .f32 0x00000000#32) (ix2 t u)
      = lgH (fun c t => v4 (ix3 (0 : Fin 1) c t)) (fun c t => v10 (ix3 (0 : Fin 1) c t))
          (fun t e => v0 (ix3 (0 : Fin 1) t e)) (fun o e => v2 (ix2 o e)) t u := fun t u => by
    refine (lgn_apply v4 v10 _ t u).trans ?_
    unfold lgH qeH keH
    refine Finset.sum_congr rfl fun c _ => ?_
    rw [nul_apply v2 v0 (row0 c) t, nul_apply v2 v0 (row1 c) u]
  have hv : ∀ (c : Fin 64) (u : Fin 2048),
      addf (shapeCast S64x2048 v16 shapeCasts_S1x64x2048_S64x2048)
        (extractStridedSlice S64x2048 ![128, 0]
          (matmul dot_S192x128_S2048x128_S192x2048_1_1_0_0_n_n none v2
            (shapeCast S2048x128 v0 shapeCasts_S1x2048x128_S2048x128) (constant (F := Ideal) S192x2048 .f32 0x00000000#32))
          slices_S192x2048_o128_0_S64x2048) (ix2 c u)
      = veH (fun c t => v16 (ix3 (0 : Fin 1) c t)) (fun t e => v0 (ix3 (0 : Fin 1) t e)) (fun o e => v2 (ix2 o e)) c u :=
    fun c u => by
    refine (v_apply v16 _ 128 slices_S192x2048_o128_0_S64x2048 c u (row2 c) rfl).trans ?_
    unfold veH
    rw [nul_apply v2 v0 (row2 c) u]
  unfold k0_pay1
  refine (tail_apply _ c t ⟨c.val, by have := c.isLt; omega⟩ ⟨64, by omega⟩ rfl rfl).trans ?_
  unfold headK
  refine congrArg₂ Ideal.div ?_ ?_
  · refine (pvl_apply _ _ t _ c rfl).trans ?_
    refine Finset.sum_congr rfl fun u _ => ?_
    exact congrArg₂ (· * ·) (congrArg Ideal.exp (hl t u)) (hv c u)
  · refine (pvr_apply _ _ t _ rfl).trans ?_
    refine Finset.sum_congr rfl fun u _ => ?_
    exact congrArg Ideal.exp (hl t u)

theorem pay2_eq_pay1 (v0 : Vec Ideal S1x2048x128 .f32) (v2 : Vec Ideal S192x128 .f32) (v4 v10 v16 : Vec Ideal S1x64x2048 .f32) :
    k0_pay2 (F := Ideal) v0 v2 v4 v10 v16 = k0_pay1 (F := Ideal) v0 v2 v4 v10 v16 := rfl

end Cert.Payload

end
-- ==== Proof.KernelRun.lean ====
import proofs.«109991_g25683904430144_cont_9to1_844_23_alg».proof.Proof.Spec
import proofs.«109991_g25683904430144_cont_9to1_844_23_alg».proof.Proof.Payload
import proofs.«109991_g25683904430144_cont_9to1_844_23_alg».proof.Proof.Gen.KernelIdeal.Frame
import Idealize.ShloMosaic.Lib.Pipeline.Value
import Idealize.ShloMosaic.Lib.StableHlo.Run

/-!
# The kernel program's result array

Grid point `t` of sixteen handles heads `2t` and `2t + 1`: its output block [2, 64, 2048] holds, at (h, c, u), the
un-normalised attention output of head `2t + h` at channel `c`, position `u`, computed from rows of the same head in
the blocks of the stacked q/k/v array and of the class embedding. The sixteen blocks tile the [32, 64, 2048] array, so
after the run that array is `outArr` of the arrays the region was entered with; the reshape after the region re-lays
it as [2, 1024, 2048], and the reshape before the region made the stacked q/k/v array from the first argument.
-/

set_option maxRecDepth 16384

noncomputable section

namespace Cert.KRun

open Cert.KernelIdeal Cert.KernelIdeal.Gen Idealize.ShloMosaic Idealize.ShloMosaic.TcCoe Idealize.SL.Sem
open Idealize.ShloMosaic.ValueIdx Cert.Attn
open Idealize.ShloMosaic.Pipeline (Dat)

/-! ## What the body leaves in its output block, entry by entry -/

/-- Rows of head `h` of a [2, 192, 2048] block, of a [2, 2048, 128] block, and the [192, 128] projection, as plain
    functions of their coordinates. -/
def blkOut (x0 : Vec Ideal S2x192x2048 .f32) (x1 : Vec Ideal S2x2048x128 .f32) (x2 : Vec Ideal S192x128 .f32)
    (y : S2x64x2048.Idx) : EReal :=
  headK (fun c t => x0 (ix3 (y 0) (row0 c) t)) (fun c t => x0 (ix3 (y 0) (row1 c) t)) (fun c t => x0 (ix3 (y 0) (row2 c) t))
    (fun t e => x1 (ix3 (y 0) t e)) (fun o e => x2 (ix2 o e)) (y 1) (y 2)

/-- One store of the body: the value stored for head 1 of the block, at local entry `x`, is that head's output at the
    place the store's rectangle puts `x`: each loaded block, read at a local entry, is the staging buffer at the place
    its own rectangle puts that entry. -/
theorem piece1 (x0 : Vec Ideal S2x192x2048 .f32) (x1 : Vec Ideal S2x2048x128 .f32) (x2 : Vec Ideal S192x128 .f32)
    (x : r0_10.shape.Idx) :
    k0_pay2 (F := Ideal) (View.ld x1 r0_6) (View.ld x2 r0_1) (View.ld x0 r0_7) (View.ld x0 r0_8) (View.ld x0 r0_9) x
      = blkOut x0 x1 x2 (r0_10.emb x) := by
  obtain ⟨a, b, d, rfl⟩ : ∃ (a : Fin 1) (b : Fin 64) (d : Fin 2048), x = ix3 a b d := ⟨x 0, x 1, x 2, eq_ix3 x⟩
  obtain rfl : a = 0 := Subsingleton.elim _ _
  rw [Payload.pay2_eq_pay1]
  refine (Payload.pay1_apply _ _ _ _ _ b d).trans ?_
  have e : r0_10.emb (ix3 (0 : Fin 1) b d) = ix3 (1 : Fin 2) b d := funext fun ax => Fin.ext (by
    match ax with
    | ⟨0, _⟩ => rfl
    | ⟨1, _⟩ => show 0 + 1 * b.val = b.val; omega
    | ⟨2, _⟩ => show 0 + 1 * d.val = d.val; omega)
  rw [e]
  have eq : (fun (c : Fin 64) (t : Fin 2048) => View.ld x0 r0_7 (ix3 (0 : Fin 1) c t)) = fun (c : Fin 64) (t : Fin 2048) => x0 (ix3 (1 : Fin 2) (row0 c) t) :=
    funext fun c => funext fun t => congrArg x0 (funext fun ax => Fin.ext (by
      match ax with
      | ⟨0, _⟩ => rfl
      | ⟨1, _⟩ => show 0 + 1 * c.val = c.val; omega
      | ⟨2, _⟩ => show 0 + 1 * t.val = t.val; omega))
  have ek : (fun (c : Fin 64) (t : Fin 2048) => View.ld x0 r0_8 (ix3 (0 : Fin 1) c t)) = fun (c : Fin 64) (t : Fin 2048) => x0 (ix3 (1 : Fin 2) (row1 c) t) :=
    funext fun c => funext fun t => congrArg x0 (funext fun ax => Fin.ext (by
      match ax with
      | ⟨0, _⟩ => rfl
      | ⟨1, _⟩ => show 64 + 1 * c.val = 64 + c.val; omega
      | ⟨2, _⟩ => show 0 + 1 * t.val = t.val; omega))
  have ev : (fun (c : Fin 64) (t : Fin 2048) => View.ld x0 r0_9 (ix3 (0 : Fin 1) c t)) = fun (c : Fin 64) (t : Fin 2048) => x0 (ix3 (1 : Fin 2) (row2 c) t) :=
    funext fun c => funext fun t => congrArg x0 (funext fun ax => Fin.ext (by
      match ax with
      | ⟨0, _⟩ => rfl
      | ⟨1, _⟩ => show 128 + 1 * c.val = 128 + c.val; omega
      | ⟨2, _⟩ => show 0 + 1 * t.val = t.val; omega))
  have eE : (fun (t : Fin 2048) (e : Fin 128) => View.ld x1 r0_6 (ix3 (0 : Fin 1) t e)) = fun (t : Fin 2048) (e : Fin 128) => x1 (ix3 (1 : Fin 2) t e) :=
    funext fun t => funext fun e => congrArg x1 (funext fun ax => Fin.ext (by
      match ax with
      | ⟨0, _⟩ => rfl
      | ⟨1, _⟩ => show 0 + 1 * t.val = t.val; omega
      | ⟨2, _⟩ => show 0 + 1 * e.val = e.val; omega))
  have eW : (fun (o : Fin 192) (e : Fin 128) => View.ld x2 r0_1 (ix2 o e)) = fun (o : Fin 192) (e : Fin 128) => x2 (ix2 o e) :=
    funext fun o => funext fun e => congrArg x2 (funext fun ax => Fin.ext (by
      match ax with
      | ⟨0, _⟩ => show 0 + 1 * o.val = o.val; omega
      | ⟨1, _⟩ => show 0 + 1 * e.val = e.val; omega))
  rw [eq, ek, ev, eE, eW]
  rfl

/-- One store of the body: the value stored for head 0 of the block, at local entry `x`, is that head's output at the
    place the store's rectangle puts `x`: each loaded block, read at a local entry, is the staging buffer at the place
    its own rectangle puts that entry. -/
theorem piece0 (x0 : Vec Ideal S2x192x2048 .f32) (x1 : Vec Ideal S2x2048x128 .f32) (x2 : Vec Ideal S192x128 .f32)
    (x : r0_5.shape.Idx) :
    k0_pay1 (F := Ideal) (View.ld x1 r0_0) (View.ld x2 r0_1) (View.ld x0 r0_2) (View.ld x0 r0_3) (View.ld x0 r0_4) x
      = blkOut x0 x1 x2 (r0_5.emb x) := by
  obtain ⟨a, b, d, rfl⟩ : ∃ (a : Fin 1) (b : Fin 64) (d : Fin 2048), x = ix3 a b d := ⟨x 0, x 1, x 2, eq_ix3 x⟩
  obtain rfl : a = 0 := Subsingleton.elim _ _
  refine (Payload.pay1_apply _ _ _ _ _ b d).trans ?_
  have e : r0_5.emb (ix3 (0 : Fin 1) b d) = ix3 (0 : Fin 2) b d := funext fun ax => Fin.ext (by
    match ax with
    | ⟨0, _⟩ => rfl
    | ⟨1, _⟩ => show 0 + 1 * b.val = b.val; omega
    | ⟨2, _⟩ => show 0 + 1 * d.val = d.val; omega)
  rw [e]
  have eq : (fun (c : Fin 64) (t : Fin 2048) => View.ld x0 r0_2 (ix3 (0 : Fin 1) c t)) = fun (c : Fin 64) (t : Fin 2048) => x0 (ix3 (0 : Fin 2) (row0 c) t) :=
    funext fun c => funext fun t => congrArg x0 (funext fun ax => Fin.ext (by
      match ax with
      | ⟨0, _⟩ => rfl
      | ⟨1, _⟩ => show 0 + 1 * c.val = c.val; omega
      | ⟨2, _⟩ => show 0 + 1 * t.val = t.val; omega))
  have ek : (fun (c : Fin 64) (t : Fin 2048) => View.ld x0 r0_3 (ix3 (0 : Fin 1) c t)) = fun (c : Fin 64) (t : Fin 2048) => x0 (ix3 (0 : Fin 2) (row1 c) t) :=
    funext fun c => funext fun t => congrArg x0 (funext fun ax => Fin.ext (by
      match ax with
      | ⟨0, _⟩ => rfl
      | ⟨1, _⟩ => show 64 + 1 * c.val = 64 + c.val; omega
      | ⟨2, _⟩ => show 0 + 1 * t.val = t.val; omega))
  have ev : (fun (c : Fin 64) (t : Fin 2048) => View.ld x0 r0_4 (ix3 (0 : Fin 1) c t)) = fun (c : Fin 64) (t : Fin 2048) => x0 (ix3 (0 : Fin 2) (row2 c) t) :=
    funext fun c => funext fun t => congrArg x0 (funext fun ax => Fin.ext (by
      match ax with
      | ⟨0, _⟩ => rfl
      | ⟨1, _⟩ => show 128 + 1 * c.val = 128 + c.val; omega
      | ⟨2, _⟩ => show 0 + 1 * t.val = t.val; omega))
  have eE : (fun (t : Fin 2048) (e : Fin 128) => View.ld x1 r0_0 (ix3 (0 : Fin 1) t e)) = fun (t : Fin 2048) (e : Fin 128) => x1 (ix3 (0 : Fin 2) t e) :=
    funext fun t => funext fun e => congrArg x1 (funext fun ax => Fin.ext (by
      match ax with
      | ⟨0, _⟩ => rfl
      | ⟨1, _⟩ => show 0 + 1 * t.val = t.val; omega
      | ⟨2, _⟩ => show 0 + 1 * e.val = e.val; omega))
  have eW : (fun (o : Fin 192) (e : Fin 128) => View.ld x2 r0_1 (ix2 o e)) = fun (o : Fin 192) (e : Fin 128) => x2 (ix2 o e) :=
    funext fun o => funext fun e => congrArg x2 (funext fun ax => Fin.ext (by
      match ax with
      | ⟨0, _⟩ => show 0 + 1 * o.val = o.val; omega
      | ⟨1, _⟩ => show 0 + 1 * e.val = e.val; omega))
  rw [eq, ek, ev, eE, eW]
  rfl

/-- The two stores tile the output block, so the block after the body is `blkOut` at every entry. -/
theorem out0_3_apply (x0 : Vec Ideal S2x192x2048 .f32) (x1 : Vec Ideal S2x2048x128 .f32) (x2 : Vec Ideal S192x128 .f32)
    (y : S2x64x2048.Idx) : out0_3 (F := Ideal) x0 x1 x2 y = blkOut x0 x1 x2 y := by
  unfold out0_3
  refine View.canon_apply_of_pieces (Val := Elt Ideal) (e := .f32) (blkOut x0 x1 x2) _ ?_ y (cover0_3 _ _ y)
  intro p hp
  simp only [List.mem_cons, List.mem_nil_iff, or_false] at hp
  rcases hp with rfl | rfl
  · intro x
    exact piece1 x0 x1 x2 x
  · intro x
    exact piece0 x0 x1 x2 x

/-! ## The blocks of the arrays, and the array after the run -/

variable (m : (ℓ : Loc nD τ sig) → Buf (Elt Ideal) ℓ) (ρ : Dev nD → PrngReg)

/-- The three arrays the region reads, as it finds them. -/
abbrev Xk (c : Dev nD) : SX.Idx → EReal := V m c main_v0
abbrev Ek (c : Dev nD) : SE.Idx → EReal := V m c main_arg1
abbrev Wk (c : Dev nD) : SW.Idx → EReal := V m c main_arg2

theorem N16 : cfg0.N = 16 := N_0

/-- Head `h` of grid point `t` is head `2t + h` of the thirty-two. -/
def hd (t : Fin cfg0.N) (h : Fin 2) : Fin 32 := ⟨2 * t.val + h.val, by have := t.isLt; have := N16; have := h.isLt; omega⟩

/-- The printed index maps over the grid: every window but the projection's moves along its leading axis with the
    point; the projection's stays. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The stacked q/k/v block of point `t`, at (h, r, u), is the array at (2t + h, r, u). -/
theorem rd0 (c : Dev nD) (t : Fin cfg0.N) (h : Fin 2) (r : Fin 192) (u : Fin 2048) :
    iblk m c 0 t (ix3 h r u) = Xk m c (ix3 (hd t h) r u) := by
  obtain ⟨e0, e1, e2, -⟩ := idx_facts t
  show V m c main_v0 (((cfg0.win 0).blk t).view.emb (ix3 h r u)) = V m c main_v0 (ix3 (hd t h) r u)
  refine congrArg (V m c main_v0) (funext fun a => Fin.ext ?_)
  match a with
  | ⟨0, _⟩ => show win0_0.index t (0 : Fin 3) * 2 + 1 * h.val = 2 * t.val + h.val; omega
  | ⟨1, _⟩ => show win0_0.index t (1 : Fin 3) * 192 + 1 * r.val = r.val; omega
  | ⟨2, _⟩ => show win0_0.index t (2 : Fin 3) * 2048 + 1 * u.val = u.val; omega

/-- The class-embedding block of point `t`, at (h, u, e), is the array at (2t + h, u, e). -/
theorem rd1 (c : Dev nD) (t : Fin cfg0.N) (h : Fin 2) (u : Fin 2048) (e : Fin 128) :
    iblk m c 1 t (ix3 h u e) = Ek m c (ix3 (hd t h) u e) := by
  obtain ⟨-, -, -, e0, e1, e2, -⟩ := idx_facts t
  show V m c main_arg1 (((cfg0.win 1).blk t).view.emb (ix3 h u e)) = V m c main_arg1 (ix3 (hd t h) u e)
  refine congrArg (V m c main_arg1) (funext fun a => Fin.ext ?_)
  match a with
  | ⟨0, _⟩ => show win0_1.index t (0 : Fin 3) * 2 + 1 * h.val = 2 * t.val + h.val; omega
  | ⟨1, _⟩ => show win0_1.index t (1 : Fin 3) * 2048 + 1 * u.val = u.val; omega
  | ⟨2, _⟩ => show win0_1.index t (2 : Fin 3) * 128 + 1 * e.val = e.val; omega

/-- The projection's block is the whole array at every point. -/
theorem rd2 (c : Dev nD) (t : Fin cfg0.N) (o : Fin 192) (e : Fin 128) :
    iblk m c 2 t (ix2 o e) = Wk m c (ix2 o e) := by
  obtain ⟨-, -, -, -, -, -, e0, e1, -⟩ := idx_facts t
  show V m c main_arg2 (((cfg0.win 2).blk t).view.emb (ix2 o e)) = V m c main_arg2 (ix2 o e)
  refine congrArg (V m c main_arg2) (funext fun a => Fin.ext ?_)
  match a with
  | ⟨0, _⟩ => show win0_2.index t (0 : Fin 2) * 192 + 1 * o.val = o.val; omega
  | ⟨1, _⟩ => show win0_2.index t (1 : Fin 2) * 128 + 1 * e.val = e.val; omega

/-- WHAT POINT `t` WRITES BACK is block `t` of `outArr` of the arrays as the region finds them. -/
theorem flushed_eq (c : Dev nD) (t : Fin cfg0.N) :
    (dats m 0 c).flushed 3 t = ((cfg0.win 3).blk t).view.read (Elt Ideal) (outArr (Xk m c) (Ek m c) (Wk m c)) := by
  show (cfg0.win 3).cut (grid0.coords t) ((dats m 0 c).after 3 t) = _
  rw [after0_3]
  funext j
  obtain ⟨h, b, d, rfl⟩ : ∃ (h : Fin 2) (b : Fin 64) (d : Fin 2048), j = ix3 h b d := ⟨j 0, j 1, j 2, eq_ix3 j⟩
  show out0_3 (iblk m c 0 t) (iblk m c 1 t) (iblk m c 2 t) (ix3 h b d)
    = outArr (Xk m c) (Ek m c) (Wk m c) (((cfg0.win 3).blk t).view.emb (ix3 h b d))
  rw [out0_3_apply]
  obtain ⟨-, -, -, -, -, -, -, -, e0, e1, e2⟩ := idx_facts t
  have e : ((cfg0.win 3).blk t).view.emb (ix3 h b d) = ix3 (hd t h) b d := funext fun a => Fin.ext (by
    match a with
    | ⟨0, _⟩ => show win0_3.index t (0 : Fin 3) * 2 + 1 * h.val = 2 * t.val + h.val; omega
    | ⟨1, _⟩ => show win0_3.index t (1 : Fin 3) * 64 + 1 * b.val = b.val; omega
    | ⟨2, _⟩ => show win0_3.index t (2 : Fin 3) * 2048 + 1 * d.val = d.val; omega)
  rw [e]
  show headK _ _ _ _ _ b d = headK (xqA (Xk m c) (hd t h)) (xkA (Xk m c) (hd t h)) (xvA (Xk m c) (hd t h)) (EbA (Ek m c) (hd t h)) (WA (Wk m c)) b d
  have eq : (fun (c' : Fin 64) (t' : Fin 2048) => iblk m c 0 t (ix3 h (row0 c') t')) = xqA (Xk m c) (hd t h) :=
    funext fun c' => funext fun t' => rd0 m c t h (row0 c') t'
  have ek : (fun (c' : Fin 64) (t' : Fin 2048) => iblk m c 0 t (ix3 h (row1 c') t')) = xkA (Xk m c) (hd t h) :=
    funext fun c' => funext fun t' => rd0 m c t h (row1 c') t'
  have ev : (fun (c' : Fin 64) (t' : Fin 2048) => iblk m c 0 t (ix3 h (row2 c') t')) = xvA (Xk m c) (hd t h) :=
    funext fun c' => funext fun t' => rd0 m c t h (row2 c') t'
  have eE : (fun (t' : Fin 2048) (e' : Fin 128) => iblk m c 1 t (ix3 h t' e')) = EbA (Ek m c) (hd t h) :=
    funext fun t' => funext fun e' => rd1 m c t h t' e'
  have eW : (fun (o : Fin 192) (e' : Fin 128) => iblk m c 2 t (ix2 o e')) = WA (Wk m c) :=
    funext fun o => funext fun e' => rd2 m c t o e'
  show headK (fun c' t' => iblk m c 0 t (ix3 h (row0 c') t')) (fun c' t' => iblk m c 0 t (ix3 h (row1 c') t'))
      (fun c' t' => iblk m c 0 t (ix3 h (row2 c') t')) (fun t' e' => iblk m c 1 t (ix3 h t' e')) (fun o e' => iblk m c 2 t (ix2 o e')) b d = _
  rw [eq, ek, ev, eE, eW]

/-- An index of the array is in point `t`'s block iff each coordinate is in the block's range on its axis. -/
theorem mem_blk (t : Fin cfg0.N) (i : S32x64x2048.Idx) :
    i ∈ ((cfg0.win 3).blk t).view.set ↔ ∀ a : Fin 3, win0_3.index t a * S2x64x2048.size a ≤ (i a).val ∧ (i a).val < win0_3.index t a * S2x64x2048.size a + S2x64x2048.size a := by
  show i ∈ ((View.whole main_v1).slice (win0_3.rect t)).set ↔ _
  rw [View.set_slice_whole, Rect.mem_set_unit]
  exact Iff.rfl

/-- Every index of the [32, 64, 2048] array is in the block of the point that handles its head. -/
theorem cover (i : S32x64x2048.Idx) : ∃ t : Fin cfg0.N, (cfg0.win 3).flush t = true ∧ i ∈ ((cfg0.win 3).blk t).view.set := by
  have h0 : (i 0).val < 32 := (i 0).isLt
  have h1 : (i 1).val < 64 := (i 1).isLt
  have h2 : (i 2).val < 2048 := (i 2).isLt
  let t : Fin cfg0.N := ⟨(i 0).val / 2, by have := N16; omega⟩
  refine ⟨t, flush0_3 t, ?_⟩
  rw [mem_blk]
  obtain ⟨-, -, -, -, -, -, -, -, e0, e1, e2⟩ := idx_facts t
  have ht : t.val = (i 0).val / 2 := rfl
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 64 ≤ (i 1).val ∧ (i 1).val < win0_3.index t (1 : Fin 3) * 64 + 64; omega
  | ⟨2, _⟩ => show win0_3.index t (2 : Fin 3) * 2048 ≤ (i 2).val ∧ (i 2).val < win0_3.index t (2 : Fin 3) * 2048 + 2048; omega

/-- THE ARRAY after the run. -/
theorem final (c : Dev nD) : (dats m 0 c).arrAt 3 cfg0.N = outArr (Xk m c) (Ek m c) (Wk m c) :=
  (dats m 0 c).arrAt_eq_of_cover 3 _ (fun t _ => flushed_eq m c t) cover

/-! ## The reshapes around the region, and the run -/

/-- The stacked q/k/v array the region reads is the first argument re-laid by the reshape before the region. -/
theorem Xk_eq (c : Dev nD) :
    Xk m c = shapeCast S32x192x2048 (m ((c : Thread nD τ).loc main_arg0)) shapeCasts_S2x3072x2048_S32x192x2048 := by
  show StableHlo.after hostOps0 (fun b => m (c, b)) (Proc.devRef .tc main_v0) = _
  after_results
  rfl

/-- The program's result is the reshape after the region of the output array as the region leaves it. -/
theorem tail_eq (c : Dev nD) :
    Pipeline.afterTail₀ cfgs (dats m) 0 (V0 m) [hostOps1] c main_v2
      = shapeCast S2x1024x2048 ((dats m 0 c).arrAt 3 cfg0.N) shapeCasts_S32x64x2048_S2x1024x2048 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c _ _ 3
  funext i
  exact congrArg (fun a => shapeCast S2x1024x2048 a shapeCasts_S32x64x2048_S2x1024x2048 i) hw

/-- The result array as one function of the three argument arrays. -/
def result (a0 : S2x3072x2048.Idx → EReal) (a1 : SE.Idx → EReal) (a2 : SW.Idx → EReal) : S2x1024x2048.Idx → EReal :=
  shapeCast S2x1024x2048 (outArr (shapeCast S32x192x2048 a0 shapeCasts_S2x3072x2048_S32x192x2048) a1 a2)
    shapeCasts_S32x64x2048_S2x1024x2048

/-- Every weakly fair execution of the kernel program ends with the result buffer at `result` of the argument arrays
    and the argument arrays unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans
        ((tail_eq m c).trans (by
          rw [final m c, Xk_eq m c, show Ek m c = m ((c.tc : Thread nD τ).loc main_arg1) from V_main_arg1 m c,
            show Wk m c = m ((c.tc : Thread nD τ).loc main_arg2) from V_main_arg2 m c]
          rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KRun

end
-- ==== Proof.lean ====
/- The kernel computes, for each of the thirty-two (batch, head) pairs, attention with a class-token offset added to
   q, k and v, in the un-normalised form: exp of the logits, one product against the values joined with a column of
   ones, and a division of the value columns by the ones column. The reference computes the same attention by a softmax
   that subtracts each row's maximum. On the extended reals the two agree when every input entry is a real number,
   which is what the precondition says: the exponential of a difference is a quotient of exponentials, and a common
   positive factor cancels between the weighted sum and the normalising sum. The reshapes before and after are the
   same in both programs.
   The frames of the two kernel programs are the generated ones; the reference's frame is its generated run with the
   result dropped; nothing was rewritten by the idealisation, so its conjunct is trivial. -/
import proofs.«109991_g25683904430144_cont_9to1_844_23_alg».proof.Defs
import proofs.«109991_g25683904430144_cont_9to1_844_23_alg».proof.Proof.Gen.Kernel
import proofs.«109991_g25683904430144_cont_9to1_844_23_alg».proof.Proof.Gen.Kernel.Skeleton
import proofs.«109991_g25683904430144_cont_9to1_844_23_alg».proof.Proof.Gen.Kernel.Launch
import proofs.«109991_g25683904430144_cont_9to1_844_23_alg».proof.Proof.Gen.Kernel.Points
import proofs.«109991_g25683904430144_cont_9to1_844_23_alg».proof.Proof.Gen.Kernel.Frame
import proofs.«109991_g25683904430144_cont_9to1_844_23_alg».proof.Proof.Gen.KernelIdeal
import proofs.«109991_g25683904430144_cont_9to1_844_23_alg».proof.Proof.Gen.KernelIdeal.Skeleton
import proofs.«109991_g25683904430144_cont_9to1_844_23_alg».proof.Proof.Gen.KernelIdeal.Launch
import proofs.«109991_g25683904430144_cont_9to1_844_23_alg».proof.Proof.Gen.KernelIdeal.Points
import proofs.«109991_g25683904430144_cont_9to1_844_23_alg».proof.Proof.Gen.KernelIdeal.Frame
import proofs.«109991_g25683904430144_cont_9to1_844_23_alg».proof.Proof.Gen.ReferenceIdeal
import proofs.«109991_g25683904430144_cont_9to1_844_23_alg».proof.Proof.Gen.Pre_finite_inputs
import proofs.«109991_g25683904430144_cont_9to1_844_23_alg».proof.Proof.Gen.ReferenceIdeal.Run
import proofs.«109991_g25683904430144_cont_9to1_844_23_alg».proof.Proof.Gen.ReferenceIdeal.Read
import proofs.«109991_g25683904430144_cont_9to1_844_23_alg».proof.Proof.Finite
import proofs.«109991_g25683904430144_cont_9to1_844_23_alg».proof.Proof.Bridge
import proofs.«109991_g25683904430144_cont_9to1_844_23_alg».proof.Proof.KernelRun
import Idealize.ShloMosaic.Adequacy
import Idealize.ShloMosaic.Init

noncomputable section

namespace Cert.Proof

open Idealize.ShloMosaic Idealize.SL.Sem

/-- The reference's result array is the kernel's function of the argument arrays, when every entry is real: both are
    the same reshape of the attention array of the same reshape of the first argument. -/
theorem ref_result (x0 : (⟨Cert.ReferenceIdeal.S2x3072x2048, .f32⟩ : BufTy).Contents (Elt Ideal))
    (x1 : (⟨Cert.ReferenceIdeal.S32x2048x128, .f32⟩ : BufTy).Contents (Elt Ideal))
    (x2 : (⟨Cert.ReferenceIdeal.S192x128, .f32⟩ : BufTy).Contents (Elt Ideal))
    (h0 : ∀ i, Cert.Attn.IsReal (x0 i)) (h1 : ∀ i, Cert.Attn.IsReal (x1 i)) (h2 : ∀ i, Cert.Attn.IsReal (x2 i)) :
    Cert.ReferenceIdeal.Read.val_main_v29 (F := Ideal) x0 x1 x2 = Cert.KRun.result x0 x1 x2 := by
  unfold Cert.ReferenceIdeal.Read.val_main_v29 Cert.KRun.result
  rw [Cert.Bridge.v28_eq x0 x1 x2 h0 h1 h2]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealised programs, from memories agreeing on the arguments, end with the result at the same function of the
    argument arrays. -/
theorem algebraic : Cert.algebraic_KernelIdeal_ReferenceIdeal := by
  intro m ρ m' ρ' hpre hagree
  refine ⟨_, Cert.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Finite.real_of_pre _ _ _ (hpre c)
  rw [Cert.ReferenceIdeal.Read.val_main_v29_eq, (hagree c).1, (hagree c).2.1, (hagree c).2.2]
  exact ref_result _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
